-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32x8 : Shape := ⟨3, ![4096, 32, 8]⟩
abbrev S1024x32 : Shape := ⟨2, ![1024, 32]⟩
abbrev S_ : Shape := ⟨0, ![]⟩

class Facts : Prop where
  bcast_S_S4096x32x8 : S_.BroadcastsInDim S4096x32x8 (![] : Fin 0 → Fin S4096x32x8.rank)
  reducesTo_S4096x32x8_S_d0_1_2 : S4096x32x8.ReducesTo [0, 1, 2] S_
  h_S_ : 0 < S_.numel
  bcast_S_S1024x32 : S_.BroadcastsInDim S1024x32 (![] : Fin 0 → Fin S1024x32.rank)
  reducesTo_S1024x32_S_d0_1 : S1024x32.ReducesTo [0, 1] S_

variable [Facts]

def fn {F : FTy → Type} [FloatOps F] (main_arg0 : FVec F S4096x32x8 .f32) (main_arg1 : IVec S1024x32 32) : IVec S_ 1 :=
  let main_v0 : FVec F S4096x32x8 .f32 := Host.absf main_arg0
  let main_cst : FVec F S_ .f32 := constant S_ .f32 0x7F800000#32
  let main_v1 : FVec F S4096x32x8 .f32 := broadcastInDim S4096x32x8 ![] bcast_S_S4096x32x8 main_cst
  let main_v2 : IVec S4096x32x8 1 := cmpf .olt main_v0 main_v1
  let main_c : IVec S_ 1 := constantI S_ 1 1#1
  let main_v3 : IVec S_ 1 := (fun x v => Host.reduce IntOp.andi x v reducesTo_S4096x32x8_S_d0_1_2 h_S_) main_v2 main_c
  let main_c_0 : IVec S_ 32 := constantI S_ 32 0#32
  let main_v4 : IVec S1024x32 32 := broadcastInDim S1024x32 ![] bcast_S_S1024x32 main_c_0
  let main_v5 : IVec S1024x32 1 := cmpi .sge main_arg1 main_v4
  let main_c_1 : IVec S_ 1 := constantI S_ 1 1#1
  let main_v6 : IVec S_ 1 := (fun x v => Host.reduce IntOp.andi x v reducesTo_S1024x32_S_d0_1 h_S_) main_v5 main_c_1
  let main_v7 : IVec S_ 1 := andi main_v3 main_v6
  let main_c_2 : IVec S_ 32 := constantI S_ 32 8#32
  let main_v8 : IVec S1024x32 32 := broadcastInDim S1024x32 ![] bcast_S_S1024x32 main_c_2
  let main_v9 : IVec S1024x32 1 := cmpi .slt main_arg1 main_v8
  let main_c_3 : IVec S_ 1 := constantI S_ 1 1#1
  let main_v10 : IVec S_ 1 := (fun x v => Host.reduce IntOp.andi x v reducesTo_S1024x32_S_d0_1 h_S_) main_v9 main_c_3
  let main_v11 : IVec S_ 1 := andi main_v7 main_v10
  main_v11
-- ==== Kernel.lean ====
abbrev S4096x32x8 : Shape := ⟨3, ![4096, 32, 8]⟩
abbrev S1024x32 : Shape := ⟨2, ![1024, 32]⟩
abbrev S4096x256 : Shape := ⟨2, ![4096, 256]⟩
abbrev S1024x32x1 : Shape := ⟨3, ![1024, 32, 1]⟩
abbrev S1x1x8 : Shape := ⟨3, ![1, 1, 8]⟩
abbrev S1024x32x8 : Shape := ⟨3, ![1024, 32, 8]⟩
abbrev S32x8x1024 : Shape := ⟨3, ![32, 8, 1024]⟩
abbrev S256x1024 : Shape := ⟨2, ![256, 1024]⟩
abbrev S4096x1024 : Shape := ⟨2, ![4096, 1024]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 7
  | .smem => 0
  | _ => 0

abbrev bufTy : (tb : Table) → Fin (tcTables nBuf tb) → BufTy
  | .hbm, ⟨0, _⟩ => ⟨S4096x32x8, .f32⟩
  | .hbm, ⟨1, _⟩ => ⟨S1024x32, .i32⟩
  | .hbm, ⟨2, _⟩ => ⟨S4096x256, .f32⟩
  | .hbm, ⟨3, _⟩ => ⟨S1024x32x1, .i32⟩
  | .hbm, ⟨4, _⟩ => ⟨S1x1x8, .i32⟩
  | .hbm, ⟨5, _⟩ => ⟨S1024x32x8, .i32⟩
  | .hbm, ⟨6, _⟩ => ⟨S1024x32x8, .i32⟩
  | .hbm, ⟨7, _⟩ => ⟨S1024x32x8, .i1⟩
  | .hbm, ⟨8, _⟩ => ⟨S1024x32x8, .f32⟩
  | .hbm, ⟨9, _⟩ => ⟨S32x8x1024, .f32⟩
  | .hbm, ⟨10, _⟩ => ⟨S256x1024, .f32⟩
  | .hbm, ⟨11, _⟩ => ⟨S4096x1024, .f32⟩
  | .hbm, ⟨12, _⟩ => ⟨S4096x1024, .f32⟩
  | .local _ .vmem, ⟨0, _⟩ => ⟨S512x256, .f32⟩
  | .local _ .vmem, ⟨1, _⟩ => ⟨S512x256, .f32⟩
  | .local _ .vmem, ⟨2, _⟩ => ⟨S256x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x32x8_S4096x256 : S4096x32x8.ShapeCasts S4096x256
  bcast_S1024x32_S1024x32x1_0_1 : S1024x32.BroadcastsInDim S1024x32x1 (![0, 1] : Fin 2 → Fin S1024x32x1.rank)
  bcast_S1024x32x1_S1024x32x8_0_1_2 : S1024x32x1.BroadcastsInDim S1024x32x8 (![0, 1, 2] : Fin 3 → Fin S1024x32x8.rank)
  bcast_S1x1x8_S1024x32x8_0_1_2 : S1x1x8.BroadcastsInDim S1024x32x8 (![0, 1, 2] : Fin 3 → Fin S1024x32x8.rank)
  transposes_S1024x32x8_S32x8x1024_1_2_0 : S1024x32x8.Transposes [1, 2, 0] S32x8x1024
  shapeCasts_S32x8x1024_S256x1024 : S32x8x1024.ShapeCasts S256x1024
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S512x1024_S512 : S512x1024.Reduces [1] S512
  shapeCasts_S512_S512x1 : S512.ShapeCasts S512x1
  broadcasts_S512x1_S512x1024 : S512x1.Broadcasts S512x1024
  inb_S512x1024_S512x1024_0_0 : ∀ a, (![0, 0] : Fin 2 → Nat) a + S512x1024.size a ≤ S512x1024.size a
  h_S512x1024 : 0 < S512x1024.numel
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .f32 = 32 ∨ (Rect.block (s := S4096x1024) S512x1024.size (cc0_transform_3 i) (hinb0_3 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_v0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x32x8 : Shape := ⟨3, ![4096, 32, 8]⟩
abbrev S1024x32 : Shape := ⟨2, ![1024, 32]⟩
abbrev S32 : Shape := ⟨1, ![32]⟩
abbrev S1x32 : Shape := ⟨2, ![1, 32]⟩
abbrev S_ : Shape := ⟨0, ![]⟩
abbrev S1024x32x1 : Shape := ⟨3, ![1024, 32, 1]⟩
abbrev S1024x32x2 : Shape := ⟨3, ![1024, 32, 2]⟩
abbrev S4096x1024x32 : Shape := ⟨3, ![4096, 1024, 32]⟩
abbrev S4096x1024 : Shape := ⟨2, ![4096, 1024]⟩
abbrev S4096 : Shape := ⟨1, ![4096]⟩
abbrev S4096x1 : Shape := ⟨2, ![4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x32x8, .f32⟩
  | .hbm, ⟨1, _⟩ => ⟨S1024x32, .i32⟩
  | .hbm, ⟨2, _⟩ => ⟨S32, .i32⟩
  | .hbm, ⟨3, _⟩ => ⟨S1x32, .i32⟩
  | .hbm, ⟨4, _⟩ => ⟨S_, .i32⟩
  | .hbm, ⟨5, _⟩ => ⟨S1x32, .i32⟩
  | .hbm, ⟨6, _⟩ => ⟨S1x32, .i1⟩
  | .hbm, ⟨7, _⟩ => ⟨S_, .i32⟩
  | .hbm, ⟨8, _⟩ => ⟨S1x32, .i32⟩
  | .hbm, ⟨9, _⟩ => ⟨S1x32, .i32⟩
  | .hbm, ⟨10, _⟩ => ⟨S1x32, .i32⟩
  | .hbm, ⟨11, _⟩ => ⟨S_, .i32⟩
  | .hbm, ⟨12, _⟩ => ⟨S1024x32, .i32⟩
  | .hbm, ⟨13, _⟩ => ⟨S1024x32, .i1⟩
  | .hbm, ⟨14, _⟩ => ⟨S_, .i32⟩
  | .hbm, ⟨15, _⟩ => ⟨S1024x32, .i32⟩
  | .hbm, ⟨16, _⟩ => ⟨S1024x32, .i32⟩
  | .hbm, ⟨17, _⟩ => ⟨S1024x32, .i32⟩
  | .hbm, ⟨18, _⟩ => ⟨S1024x32, .i32⟩
  | .hbm, ⟨19, _⟩ => ⟨S1024x32x1, .i32⟩
  | .hbm, ⟨20, _⟩ => ⟨S1024x32x1, .i32⟩
  | .hbm, ⟨21, _⟩ => ⟨S1024x32x2, .i32⟩
  | .hbm, ⟨22, _⟩ => ⟨S4096x1024x32, .f32⟩
  | .hbm, ⟨23, _⟩ => ⟨S_, .f32⟩
  | .hbm, ⟨24, _⟩ => ⟨S4096x1024x32, .f32⟩
  | .hbm, ⟨25, _⟩ => ⟨S4096x1024x32, .f32⟩
  | .hbm, ⟨26, _⟩ => ⟨S4096x1024x32, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | _, _ => ⟨S4096x32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S_S1x32 : S_.BroadcastsInDim S1x32 (![] : Fin 0 → Fin S1x32.rank)
  bcast_S_S1024x32 : S_.BroadcastsInDim S1024x32 (![] : Fin 0 → Fin S1024x32.rank)
  bcast_S1x32_S1024x32_0_1 : S1x32.BroadcastsInDim S1024x32 (![0, 1] : Fin 2 → Fin S1024x32.rank)
  bcast_S1024x32_S1024x32x1_0_1 : S1024x32.BroadcastsInDim S1024x32x1 (![0, 1] : Fin 2 → Fin S1024x32x1.rank)
  concatenates_S1024x32x1_S1024x32x1_S1024x32x2_d2 : Shape.Concatenates [S1024x32x1, S1024x32x1] S1024x32x2 2
  bcast_S_S4096x1024x32 : S_.BroadcastsInDim S4096x1024x32 (![] : Fin 0 → Fin S4096x1024x32.rank)
  reducesTo_S4096x1024x32_S4096x1024_d2 : S4096x1024x32.ReducesTo [2] S4096x1024
  h_S_ : 0 < S_.numel
  reducesTo_S4096x1024_S4096_d1 : S4096x1024.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  gather_S4096x32x8_S1024x32x2_S4096x1024x32_0_12_n_n_12_2_409611_wf : GatherDims.WF S4096x32x8 S1024x32x2 S4096x1024x32 [0] [1, 2] [] [1, 2] [] 2 ![4096, 1, 1]

variable [Facts₀]

def gather_S4096x32x8_S1024x32x2_S4096x1024x32_0_12_n_n_12_2_409611 : GatherDims S4096x32x8 S1024x32x2 S4096x1024x32 where
  offsetDims := [0]
  collapsedSliceDims := [1, 2]
  operandBatchingDims := []
  startIndicesBatchingDims := []
  startIndexMap := [1, 2]
  indexVectorDim := 2
  sliceSizes := ![4096, 1, 1]
  wf := gather_S4096x32x8_S1024x32x2_S4096x1024x32_0_12_n_n_12_2_409611_wf

class Facts : Prop extends Facts₀ where

variable [Facts]
-- ==== Proof.LibCoe.lean ====
/-
  Extended-real facts used throughout: a finite sum of reals is real, the order and the reciprocal square root on
  reals, a select on a decided comparison, the float words for 0 and 1, and the contraction of a field with an
  indicator (a one-hot row or column picks one entry; an indicator column restricts a sum).
-/
import Idealize.ShloMosaic.PureOps.Ideal
import Idealize.ShloMosaic.PureOps.Ideal.Laws

noncomputable section

open scoped BigOperators

namespace Cert.Gcn

open Idealize.ShloMosaic

/-- A finite sum of real numbers, taken in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The strict comparison of two reals in the extended reals. -/
theorem cmp_ogt_coe (a b : ℝ) : Ideal.cmp .ogt (a : EReal) (b : EReal) = BitVec.ofBool (decide (b < a)) := by
  unfold Ideal.cmp
  simp only [EReal.coe_lt_coe_iff]

/-- A select on a decided condition is the `if`. -/
theorem select_ofBool {α : Type} (c : Prop) [Decidable c] (a b : α) :
    Scalar.select (BitVec.ofBool (decide c)) a b = if c then a else b := by
  unfold Scalar.select
  by_cases h : c
  · simp [h]
  · simp [h]

/-- The reciprocal square root of a positive real. -/
theorem rsqrt_coe_pos {r : ℝ} (h : 0 < r) : Ideal.rsqrt (r : EReal) = (((Real.sqrt r)⁻¹ : ℝ) : EReal) := by
  rw [Ideal.rsqrt_coe, if_neg (not_lt.2 h.le), if_neg (ne_of_gt h)]

/-- The word of `1.0f` denotes one. -/
theorem ofBits_one_f32 : Ideal.ofBits .f32 0x3F800000#32 = ((1 : ℝ) : EReal) := by
  simp [Ideal.ofBits, Ideal.ieee]
  rw [← EReal.coe_mul]
  norm_num

/-- The word of `0.0f` denotes the real zero. -/
theorem ofBits_zero_f32' : Ideal.ofBits .f32 0x00000000#32 = ((0 : ℝ) : EReal) := by
  rw [Ideal.ofBits_zero_f32]; rfl

/-- A real field contracted with a one-hot indicator picks the entry at the hot position. -/
theorem sum_mul_onehot {ι : Type} [Fintype ι] [DecidableEq ι] (f : ι → ℝ) (s : ι) :
    (∑ k : ι, ((f k : ℝ) : EReal) * (if k = s then ((1 : ℝ) : EReal) else ((0 : ℝ) : EReal))) = ((f s : ℝ) : EReal) := by
  have : ∀ k : ι, ((f k : ℝ) : EReal) * (if k = s then ((1 : ℝ) : EReal) else ((0 : ℝ) : EReal))
      = (((if k = s then f k else 0 : ℝ)) : EReal) := by
    intro k; by_cases hk : k = s
    · simp [hk]
    · simp [hk]
  simp only [this, coe_sum, Finset.sum_ite_eq', Finset.mem_univ, if_true]

/-- A real field contracted with an indicator of a predicate is the real sum restricted to the predicate. -/
theorem sum_mul_indicator {ι : Type} [Fintype ι] (f : ι → ℝ) (P : ι → Prop) [DecidablePred P] :
    (∑ k : ι, ((f k : ℝ) : EReal) * (if P k then ((1 : ℝ) : EReal) else ((0 : ℝ) : EReal)))
      = ((∑ k : ι, (if P k then f k else 0) : ℝ) : EReal) := by
  have : ∀ k : ι, ((f k : ℝ) : EReal) * (if P k then ((1 : ℝ) : EReal) else ((0 : ℝ) : EReal))
      = (((if P k then f k else 0 : ℝ)) : EReal) := by
    intro k; by_cases hk : P k
    · simp [hk]
    · simp [hk]
  simp only [this, coe_sum]

end Cert.Gcn

end
-- ==== Proof.LibDot.lean ====
/-
  The matrix unit's product of an `[R, K]` by a `[K, C]` matrix into a zero accumulator, read at an entry, at the
  extended reals: the sum over `k` of the products.  And the product taken "exactly in two passes": of the left operand
  narrowed, plus of the left operand minus itself narrowed — on a real left operand the second pass is a product with
  zero, and the two passes together are the one real product.
-/
import Idealize.ShloMosaic.PureOps.Ideal
import Idealize.ShloMosaic.PureOps.Ideal.Laws
import Idealize.ShloMosaic.Lib.ValueIdx
import proofs.«413795_j19387482374754_3_alg».proof.Proof.LibCoe

noncomputable section

open scoped BigOperators

namespace Cert.Gcn.Dot

open Idealize.ShloMosaic Idealize.ShloMosaic.ValueIdx

/-- The dimension numbers of a plain matrix product: contract the left operand's axis 1 with the right's axis 0. -/
abbrev mm (R K C : Nat) (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ := ⟨[1], [0], [0], [1], [], [], wf⟩

/-- The left operand's index on axis 0 is the result index's row. -/
theorem lhs_0 {R K C : Nat} (wf : DotDims.WF ⟨2, ![R, K]⟩ ⟨2, ![K, C]⟩ ⟨2, ![R, C]⟩ [1] [0] [0] [1] [] [])
    (j : (⟨2, ![R, C]⟩ : Shape).Idx) (q : (mm R K C wf).contr.Idx) :
    ((mm R K C wf).lhsIdx j q 0).val = (j 0).val := by
  unfold DotDims.lhsIdx
  rw [dif_neg (show ¬(0 : Fin (⟨2, ![R, K]⟩ : Shape).rank) ∈ (mm R K C wf).lhsBatch from List.not_mem_nil),
    dif_pos (show (0 : Fin (⟨2, ![R, K]⟩ : Shape).rank) ∈ (mm R K C wf).lhsNonContracting from List.mem_singleton.mpr rfl)]
  rfl

/-- The left operand's index on axis 1 is the contraction position's one coordinate. -/
theorem lhs_1 {R K C : Nat} (wf : DotDims.WF ⟨2, ![R, K]⟩ ⟨2, ![K, C]⟩ ⟨2, ![R, C]⟩ [1] [0] [0] [1] [] [])
    (j : (⟨2, ![R, C]⟩ : Shape).Idx) (q : (mm R K C wf).contr.Idx) :
    ((mm R K C wf).lhsIdx j q 1).val = (q ⟨0, Nat.one_pos⟩).val :=
  (mm R K C wf).lhsIdx_val_of_single rfl j q

/-- The right operand's index on axis 0 is the contraction position's one coordinate. -/
theorem rhs_0 {R K C : Nat} (wf : DotDims.WF ⟨2, ![R, K]⟩ ⟨2, ![K, C]⟩ ⟨2, ![R, C]⟩ [1] [0] [0] [1] [] [])
    (j : (⟨2, ![R, C]⟩ : Shape).Idx) (q : (mm R K C wf).contr.Idx) :
    ((mm R K C wf).rhsIdx j q 0).val = (q ⟨0, Nat.one_pos⟩).val :=
  (mm R K C wf).rhsIdx_val_of_single rfl j q

/-- The right operand's index on axis 1 is the result index's column. -/
theorem rhs_1 {R K C : Nat} (wf : DotDims.WF ⟨2, ![R, K]⟩ ⟨2, ![K, C]⟩ ⟨2, ![R, C]⟩ [1] [0] [0] [1] [] [])
    (j : (⟨2, ![R, C]⟩ : Shape).Idx) (q : (mm R K C wf).contr.Idx) :
    ((mm R K C wf).rhsIdx j q 1).val = (j 1).val := by
  unfold DotDims.rhsIdx
  rw [dif_neg (show ¬(1 : Fin (⟨2, ![K, C]⟩ : Shape).rank) ∈ (mm R K C wf).rhsBatch from List.not_mem_nil),
    dif_pos (show (1 : Fin (⟨2, ![K, C]⟩ : Shape).rank) ∈ (mm R K C wf).rhsNonContracting from List.mem_singleton.mpr rfl)]
  rfl

/-- THE PRODUCT AT `(r, c)`: into a zero accumulator, the sum over the contracted axis. -/
theorem matmul_zero_apply {R K C : Nat} {φ₁ φ₂ : FTy}
    (wf : DotDims.WF ⟨2, ![R, K]⟩ ⟨2, ![K, C]⟩ ⟨2, ![R, C]⟩ [1] [0] [0] [1] [] [])
    (prec : Option ContractPrecision) (x : FVec Ideal ⟨2, ![R, K]⟩ φ₁) (g : FVec Ideal ⟨2, ![K, C]⟩ φ₂) (r : Fin R) (c : Fin C) :
    matmul (mm R K C wf) prec x g (constant (F := Ideal) ⟨2, ![R, C]⟩ .f32 0x00000000#32) (ix2 r c)
      = ∑ k : Fin K, x (ix2 r k) * g (ix2 k c) := by
  refine (Ideal.matmul_constant_zero_apply (mm R K C wf) prec x g (ix2 r c)).trans ?_
  rw [← Equiv.sum_comp (contrEquiv1 (mm R K C wf) K rfl rfl).symm]
  refine Finset.sum_congr rfl fun k _ => ?_
  have hk := contrEquiv1_symm_val (mm R K C wf) K rfl rfl k
  have el : (mm R K C wf).lhsIdx (ix2 r c) ((contrEquiv1 (mm R K C wf) K rfl rfl).symm k) = ix2 r k :=
    funext fun a => Fin.ext (by
      match a with
      | ⟨0, _⟩ => exact lhs_0 wf _ _
      | ⟨1, _⟩ => exact (lhs_1 wf _ _).trans hk)
  have er : (mm R K C wf).rhsIdx (ix2 r c) ((contrEquiv1 (mm R K C wf) K rfl rfl).symm k) = ix2 k c :=
    funext fun a => Fin.ext (by
      match a with
      | ⟨0, _⟩ => exact (rhs_0 wf _ _).trans hk
      | ⟨1, _⟩ => exact rhs_1 wf _ _)
  rw [el, er]

/-- THE TWO-PASS PRODUCT ON REAL DATA: the pass over the operand plus the pass over the operand minus itself is the
    real product. (`X` the left operand's entries, `G` the right's; the narrowing to bf16 is the identity here.) -/
theorem split_matmul_apply {R K C : Nat}
    (wf : DotDims.WF ⟨2, ![R, K]⟩ ⟨2, ![K, C]⟩ ⟨2, ![R, C]⟩ [1] [0] [0] [1] [] [])
    (prec : Option ContractPrecision) (x : FVec Ideal ⟨2, ![R, K]⟩ .f32) (g : FVec Ideal ⟨2, ![K, C]⟩ .bf16)
    (hb : FTy.bf16.bits < FTy.f32.bits)
    (X : Fin R → Fin K → ℝ) (G : Fin K → Fin C → ℝ)
    (hx : ∀ r k, x (ix2 r k) = ((X r k : ℝ) : EReal)) (hg : ∀ k c, g (ix2 k c) = ((G k c : ℝ) : EReal)) (r : Fin R) (c : Fin C) :
    addf (matmul (mm R K C wf) prec (truncf .bf16 x hb) g (constant (F := Ideal) ⟨2, ![R, C]⟩ .f32 0x00000000#32))
         (matmul (mm R K C wf) prec (truncf .bf16 (subf x x) hb) g (constant (F := Ideal) ⟨2, ![R, C]⟩ .f32 0x00000000#32)) (ix2 r c)
      = ((∑ k : Fin K, X r k * G k c : ℝ) : EReal) := by
  rw [addf_apply, matmul_zero_apply wf prec (truncf .bf16 x hb) g r c,
    matmul_zero_apply wf prec (truncf .bf16 (subf x x) hb) g r c]
  have h1 : ∀ k : Fin K, (truncf .bf16 x hb : FVec Ideal ⟨2, ![R, K]⟩ .bf16) (ix2 r k) * g (ix2 k c)
      = ((X r k * G k c : ℝ) : EReal) := fun k => by
    rw [truncf_apply, hx, hg, ← EReal.coe_mul]
  have h2 : ∀ k : Fin K, (truncf .bf16 (subf x x) hb : FVec Ideal ⟨2, ![R, K]⟩ .bf16) (ix2 r k) * g (ix2 k c)
      = 0 := fun k => by
    rw [truncf_apply, subf_apply, hx, hg, ← EReal.coe_sub, sub_self, EReal.coe_zero, zero_mul]
  rw [Finset.sum_congr rfl (fun k _ => h1 k), Finset.sum_congr rfl (fun k _ => h2 k), Finset.sum_const_zero,
    add_zero, Cert.Gcn.coe_sum]

end Cert.Gcn.Dot

end
-- ==== Proof.RuleSpec.lean ====
/-
  The rule layer as one function of its two arguments, at the extended reals.

  A sample `b` has, for each feature `f`, eight membership values `mf b f 0 … mf b f 7`; a rule `r` names, for each
  feature, ONE of the eight (`ri r f`).  Writing `L b f m = log (mf b f m + ε₁)`, the rule's firing strength on the
  sample is the product of the memberships it names, taken in the log domain,

      firing b r = exp (∑ f, L b f (ri r f)),

  and the normalised strength divides by the sample's total plus a second epsilon,

      norm b r = firing b r / (∑ r', firing b r' + ε₂).

  The selection is written here as a contraction with a weight that is one at the named membership and zero at the
  other seven, `∑ f, ∑ m, L b f m · [ri r f = m]`: on the extended reals a product with one is the factor and a
  product with zero is zero whatever the factor (`-∞` included: `log 0`), so for a rule that names a membership in
  range the inner sum is the one named term (`sum_mul_sel`).  Two further facts: a sum over the 256 flattened
  positions `8 f + m` is the double sum over `f` and `m` (`sum_flat`); and, the total of the exponentials being
  nonnegative and `ε₂` positive, the denominator is never zero, so multiplying by its reciprocal IS dividing by it
  (`mul_recip`) — on every extended real, with no finiteness of the memberships asked.
-/
import Idealize.ShloMosaic.PureOps.Ideal
import Idealize.ShloMosaic.PureOps.Ideal.Laws
import Idealize.ShloMosaic.Lib.ValueIdx
import proofs.«413795_j19387482374754_3_alg».proof.Proof.LibCoe

noncomputable section

open scoped BigOperators

namespace Cert.RuleLayer

open Idealize.ShloMosaic Idealize.ShloMosaic.ValueIdx

/-- The memberships: samples × features × membership functions. -/
abbrev SMf : Shape := ⟨3, ![4096, 32, 8]⟩
/-- The rule table: rules × features, each word the membership the rule names. -/
abbrev SRi : Shape := ⟨2, ![1024, 32]⟩
/-- A result: samples × rules. -/
abbrev SOut : Shape := ⟨2, ![4096, 1024]⟩

/-- The first epsilon, added under the logarithm. -/
abbrev eps₁ : EReal := Ideal.ofBits .f32 0x3089705F#32
/-- The second epsilon, added to a sample's total firing. -/
abbrev eps₂ : EReal := Ideal.ofBits .f32 0x358637BD#32

/-- The log-membership of sample `b`, feature `f`, membership `m`. -/
def lgm (mf : FVec Ideal SMf .f32) (b : Fin 4096) (f : Fin 32) (m : Fin 8) : EReal :=
  Ideal.log (mf (ix3 b f m) + eps₁)

/-- Rule `r`'s weight on membership `m` of feature `f`: one when the rule names it, zero otherwise. -/
def sel (ri : IVec SRi 32) (r : Fin 1024) (f : Fin 32) (m : Fin 8) : EReal :=
  if ri (ix2 r f) = BitVec.ofNat 32 m.val then ((1 : ℝ) : EReal) else ((0 : ℝ) : EReal)

/-- The firing strength of rule `r` on sample `b`. -/
def firing (mf : FVec Ideal SMf .f32) (ri : IVec SRi 32) (b : Fin 4096) (r : Fin 1024) : EReal :=
  Ideal.exp (∑ f : Fin 32, ∑ m : Fin 8, lgm mf b f m * sel ri r f m)

/-- Sample `b`'s total firing strength plus the second epsilon. -/
def denom (mf : FVec Ideal SMf .f32) (ri : IVec SRi 32) (b : Fin 4096) : EReal :=
  (∑ r : Fin 1024, firing mf ri b r) + eps₂

/-- The first result: the firing strengths. -/
def firingArr (mf : FVec Ideal SMf .f32) (ri : IVec SRi 32) : FVec Ideal SOut .f32 :=
  fun j => firing mf ri ⟨(j 0).val, (j 0).isLt⟩ ⟨(j 1).val, (j 1).isLt⟩

/-- The second result: the normalised strengths. -/
def normArr (mf : FVec Ideal SMf .f32) (ri : IVec SRi 32) : FVec Ideal SOut .f32 :=
  fun j => Ideal.div (firing mf ri ⟨(j 0).val, (j 0).isLt⟩ ⟨(j 1).val, (j 1).isLt⟩) (denom mf ri ⟨(j 0).val, (j 0).isLt⟩)

theorem firingArr_ix2 (mf : FVec Ideal SMf .f32) (ri : IVec SRi 32) (b : Fin 4096) (r : Fin 1024) :
    firingArr mf ri (ix2 b r) = firing mf ri b r := rfl

theorem normArr_ix2 (mf : FVec Ideal SMf .f32) (ri : IVec SRi 32) (b : Fin 4096) (r : Fin 1024) :
    normArr mf ri (ix2 b r) = Ideal.div (firing mf ri b r) (denom mf ri b) := rfl

/-! ## The three laws -/

/-- A contraction with the weight that is one at `s` and zero elsewhere picks the entry at `s`, on every extended
    real. -/
theorem sum_mul_pick {ι : Type} [Fintype ι] [DecidableEq ι] (g : ι → EReal) (s : ι) :
    (∑ k : ι, g k * (if k = s then ((1 : ℝ) : EReal) else ((0 : ℝ) : EReal))) = g s := by
  have h : ∀ k : ι, g k * (if k = s then ((1 : ℝ) : EReal) else ((0 : ℝ) : EReal)) = if k = s then g k else 0 := by
    intro k
    by_cases hk : k = s
    · rw [if_pos hk, if_pos hk, EReal.coe_one, mul_one]
    · rw [if_neg hk, if_neg hk, EReal.coe_zero, mul_zero]
  rw [Finset.sum_congr rfl (fun k _ => h k), Finset.sum_ite_eq', if_pos (Finset.mem_univ s)]

/-- For a rule that names membership `n < 8` of feature `f`, the contraction over the eight memberships is the
    named one. -/
theorem sum_mul_sel (mf : FVec Ideal SMf .f32) (ri : IVec SRi 32) (b : Fin 4096) (r : Fin 1024) (f : Fin 32)
    (h : (ri (ix2 r f)).toNat < 8) :
    (∑ m : Fin 8, lgm mf b f m * sel ri r f m) = lgm mf b f ⟨(ri (ix2 r f)).toNat, h⟩ := by
  -- the table's word is the word of `m` exactly when `m` is the word's value
  have hiff : ∀ m : Fin 8, ri (ix2 r f) = BitVec.ofNat 32 m.val ↔ m = ⟨(ri (ix2 r f)).toNat, h⟩ := by
    intro m
    constructor
    · intro e
      apply Fin.ext
      show m.val = (ri (ix2 r f)).toNat
      rw [e, BitVec.toNat_ofNat]
      have := m.isLt
      omega
    · intro e
      apply BitVec.eq_of_toNat_eq
      rw [BitVec.toNat_ofNat, e]
      show (ri (ix2 r f)).toNat = (ri (ix2 r f)).toNat % 2 ^ 32
      omega
  have hterm : ∀ m : Fin 8, lgm mf b f m * sel ri r f m
      = lgm mf b f m * (if m = ⟨(ri (ix2 r f)).toNat, h⟩ then ((1 : ℝ) : EReal) else ((0 : ℝ) : EReal)) := by
    intro m
    unfold sel
    by_cases hm : m = ⟨(ri (ix2 r f)).toNat, h⟩
    · rw [if_pos hm, if_pos ((hiff m).mpr hm)]
    · rw [if_neg hm, if_neg (fun e => hm ((hiff m).mp e))]
  rw [Finset.sum_congr rfl (fun m _ => hterm m)]
  exact sum_mul_pick (fun m => lgm mf b f m) _

/-- The flattened position `8 f + m`. -/
abbrev flat (f : Fin 32) (m : Fin 8) : Fin 256 := ⟨8 * f.val + m.val, by omega⟩

/-- A sum over the 256 flattened positions is the double sum over features and memberships. -/
theorem sum_flat (g : Fin 256 → EReal) : (∑ k : Fin 256, g k) = ∑ f : Fin 32, ∑ m : Fin 8, g (flat f m) := by
  -- the pairs (f, m) enumerate the 256 positions, the pair's position being m + 8 f
  have e := Equiv.sum_comp (finProdFinEquiv : Fin 32 × Fin 8 ≃ Fin (32 * 8)) (g : Fin (32 * 8) → EReal)
  refine (e.symm.trans ?_)
  rw [Fintype.sum_prod_type]
  refine Finset.sum_congr rfl fun f _ => Finset.sum_congr rfl fun mm _ => ?_
  congr 1
  apply Fin.ext
  show mm.val + 8 * f.val = 8 * f.val + mm.val
  omega

/-- The exponential is nonnegative. -/
theorem exp_nonneg (x : EReal) : 0 ≤ Ideal.exp x := by
  induction x using EReal.rec with
  | bot => exact le_refl _
  | coe r => exact EReal.coe_nonneg.2 (Real.exp_nonneg r)
  | top => exact le_top

/-- The second epsilon's word denotes a positive dyadic rational. -/
theorem eps₂_pos : (0 : EReal) < eps₂ := by
  simp [eps₂, Ideal.ofBits, Ideal.ieee]
  rw [← EReal.coe_mul]
  exact EReal.coe_pos.2 (by norm_num)

/-- The denominator is positive, hence not zero. -/
theorem denom_ne_zero (mf : FVec Ideal SMf .f32) (ri : IVec SRi 32) (b : Fin 4096) : denom mf ri b ≠ 0 := by
  have hs : (0 : EReal) ≤ ∑ r : Fin 1024, firing mf ri b r := Finset.sum_nonneg fun r _ => exp_nonneg _
  exact (lt_of_lt_of_le eps₂_pos (le_add_of_nonneg_left hs)).ne'

/-- Multiplying by the reciprocal of a nonzero extended real is dividing by it. -/
theorem mul_recip (a d : EReal) (hd : d ≠ 0) : a * Ideal.div (Ideal.ofBits .f32 0x3F800000#32) d = Ideal.div a d := by
  unfold Ideal.div
  rw [if_neg hd, if_neg hd, Cert.Gcn.ofBits_one_f32, EReal.coe_one, one_mul]

end Cert.RuleLayer

end
-- ==== Proof.KernelEntry.lean ====
/-
  The kernel body's two stored values at an entry of the block, at the extended reals.

  With `x` the 512 × 256 block of flattened memberships and `w` the 256 × 1024 table of weights, the body stores
  `E = exp (log (x + ε₁) · w)` — the matrix product into a zero accumulator, so at row `p`, column `q` the sum over
  the 256 positions `k` of `log (x p k + ε₁) · w k q` — and `E · (1 / (rowsum E + ε₂))`, the row sum taken over the
  1024 columns.
-/
import proofs.«413795_j19387482374754_3_alg».proof.Proof.Gen.KernelIdeal.Value
import proofs.«413795_j19387482374754_3_alg».proof.Proof.LibDot
import proofs.«413795_j19387482374754_3_alg».proof.Proof.RuleSpec
import Idealize.ShloMosaic.Lib.Pipeline.Value
import Idealize.ShloMosaic.Lib.ValueIdx
import Idealize.ShloMosaic.PureOps.Ideal.Laws

noncomputable section

open scoped BigOperators

namespace Cert.RuleLayer.Body

open Cert.KernelIdeal Cert.KernelIdeal.Gen Idealize.ShloMosaic Idealize.ShloMosaic.ValueIdx Cert.RuleLayer

/-- The first stored value at `(p, q)`: the exponential of the contraction of the log-memberships with the weights. -/
theorem firing_entry (x : Vec Ideal S512x256 .f32) (w : Vec Ideal S256x1024 .f32) (p : Fin 512) (q : Fin 1024) :
    k0_pay1 (F := Ideal) x w (ix2 p q) = Ideal.exp (∑ k : Fin 256, Ideal.log (x (ix2 p k) + eps₁) * w (ix2 k q)) := by
  show Ideal.exp (matmul dot_S512x256_S256x1024_S512x1024_1_0_0_1_n_n (some .fp32)
      (log (addf (shapeCast S512x256 x Facts₀.shapeCasts_S512x256_S512x256) (broadcast S512x256 (Scalar.ofBits .f32 0x3089705F#32))))
      (shapeCast S256x1024 w Facts₀.shapeCasts_S256x1024_S256x1024) (constant (F := Ideal) S512x1024 .f32 0x00000000#32) (ix2 p q)) = _
  refine congrArg Ideal.exp ?_
  refine (Cert.Gcn.Dot.matmul_zero_apply Facts₀.dot_S512x256_S256x1024_S512x1024_1_0_0_1_n_n_wf (some .fp32) _ _ p q).trans ?_
  refine Finset.sum_congr rfl fun k _ => ?_
  rw [shapeCast_self, shapeCast_self]
  rfl

/-- The second stored value at `(p, q)`: the first times the reciprocal of its row's total plus `ε₂`. -/
theorem norm_entry (x : Vec Ideal S512x256 .f32) (w : Vec Ideal S256x1024 .f32) (p : Fin 512) (q : Fin 1024) :
    Cert.KernelIdeal.Value.E3 (F := Ideal) x w (ix2 p q)
      = k0_pay1 (F := Ideal) x w (ix2 p q)
        * Ideal.div (Ideal.ofBits .f32 0x3F800000#32) ((∑ q' : Fin 1024, k0_pay1 (F := Ideal) x w (ix2 p q')) + eps₂) := by
  -- the block form reads the first stored value at (p, q) and the row total at p
  have e0 : Cert.KernelIdeal.Value.ix3_0 (ix2 p q) = ix2 p q :=
    funext fun a => Fin.ext (by match a with | ⟨0, _⟩ => rfl | ⟨1, _⟩ => rfl)
  have e1 : Cert.KernelIdeal.Value.ix3_1 (ix2 p q) = ix1 p :=
    funext fun a => Fin.ext (by match a with | ⟨0, _⟩ => rfl)
  -- the sum over the lane axis, at row p, is the sum over the 1024 columns
  have hsum : (multiReduction (F := Ideal) .add [1] S512 (k0_pay1 (F := Ideal) x w) 0x00000000#32
        Facts₀.reduces_S512x1024_S512 (.inl rfl) rfl) (ix1 p)
      = ∑ q' : Fin 1024, k0_pay1 (F := Ideal) x w (ix2 p q') := by
    refine (Ideal.multiReduction_add_single (k0_pay1 (F := Ideal) x w) 0x00000000#32
      Facts₀.reduces_S512x1024_S512 (.inl rfl) rfl (ix1 p)).trans ?_
    refine Finset.sum_congr rfl fun k _ => ?_
    refine congrArg (k0_pay1 (F := Ideal) x w) ?_
    funext c
    apply Fin.ext
    fin_cases c <;> rfl
  show k0_pay1 (F := Ideal) x w (Cert.KernelIdeal.Value.ix3_0 (ix2 p q))
      * Ideal.div (Ideal.ofBits .f32 0x3F800000#32)
        ((multiReduction (F := Ideal) .add [1] S512 (k0_pay1 (F := Ideal) x w) 0x00000000#32
          Facts₀.reduces_S512x1024_S512 (.inl rfl) rfl) (Cert.KernelIdeal.Value.ix3_1 (ix2 p q)) + Ideal.ofBits .f32 0x358637BD#32) = _
  rw [e0, e1, hsum]

end Cert.RuleLayer.Body

end
-- ==== Proof.HostPrefix.lean ====
/-
  What the region finds in its two input arrays, at an index.

  The first is the memberships with the feature and membership axes merged: position `8 f + m` of row `b` is
  `mf b f m`.  The second is the rule table turned into weights — compare each word with 0 … 7, convert the truth
  value to a float, move the rule axis last and merge the other two — so position `8 f + m` of column `r` is one
  when rule `r` names membership `m` of feature `f` and zero otherwise.
-/
import proofs.«413795_j19387482374754_3_alg».proof.Proof.Gen.KernelIdeal.Frame
import proofs.«413795_j19387482374754_3_alg».proof.Proof.RuleSpec
import Idealize.ShloMosaic.Lib.Pipeline.Value
import Idealize.ShloMosaic.Lib.ValueIdx
import Idealize.ShloMosaic.Lib.StableHlo.Run

noncomputable section

namespace Cert.RuleLayer.Prefix

open Cert.KernelIdeal Cert.KernelIdeal.Gen Idealize.ShloMosaic Idealize.ShloMosaic.TcCoe Idealize.SL.Sem
open Idealize.ShloMosaic.ValueIdx Cert.RuleLayer

variable (m : (ℓ : Loc nD τ sig) → Buf (Elt Ideal) ℓ)

/-- The memberships as launched, and the rule table as launched. -/
abbrev mfArg (c : Dev nD) : FVec Ideal SMf .f32 := m ((c : Thread nD τ).loc main_arg0)
abbrev riArg (c : Dev nD) : IVec SRi 32 := m ((c : Thread nD τ).loc main_arg1)

/-! ## The layout operations of the prefix, read at an index -/

section Layout

variable {α : Type}

/-- Merging the last two axes of `[4096, 32, 8]`: position `8 f + mm` of row `b` is entry `(b, f, mm)`, both at
    row-major position `256 b + 8 f + mm`. -/
theorem merge_last (x : S4096x32x8.Idx → α) (h : S4096x32x8.ShapeCasts S4096x256) (b : Fin 4096) (f : Fin 32)
    (mm : Fin 8) : shapeCast S4096x256 x h (ix2 b (flat f mm)) = x (ix3 b f mm) := by
  refine shapeCast_apply x h _ _ ?_
  rw [Shape.rowMajor_val_three, Shape.rowMajor_val_two]
  show (b.val * 32 + f.val) * 8 + mm.val = b.val * 256 + (8 * f.val + mm.val)
  omega

/-- Merging the first two axes of `[32, 8, 1024]`: row `8 f + mm`, column `r` is entry `(f, mm, r)`, both at
    row-major position `1024 (8 f + mm) + r`. -/
theorem merge_first (x : S32x8x1024.Idx → α) (h : S32x8x1024.ShapeCasts S256x1024) (f : Fin 32) (mm : Fin 8)
    (r : Fin 1024) : shapeCast S256x1024 x h (ix2 (flat f mm) r) = x (ix3 f mm r) := by
  refine shapeCast_apply x h _ _ ?_
  rw [Shape.rowMajor_val_three, Shape.rowMajor_val_two]
  show (f.val * 8 + mm.val) * 1024 + r.val = (8 * f.val + mm.val) * 1024 + r.val
  omega

/-- Moving the first axis of `[1024, 32, 8]` last: entry `(f, mm, r)` of the result is entry `(r, f, mm)`. -/
theorem rule_axis_last (x : S1024x32x8.Idx → α) (h : S1024x32x8.Transposes [1, 2, 0] S32x8x1024) (f : Fin 32)
    (mm : Fin 8) (r : Fin 1024) : transpose S32x8x1024 [1, 2, 0] x h (ix3 f mm r) = x (ix3 r f mm) :=
  transpose_apply [1, 2, 0] x h (ix3 f mm r) (ix3 r f mm) (fun b => match b with
    | ⟨0, _⟩ => rfl
    | ⟨1, _⟩ => rfl
    | ⟨2, _⟩ => rfl)

/-- The table given a unit third axis and repeated eight times along it: entry `(r, f, mm)` is the table's `(r, f)`. -/
theorem table_repeated (x : S1024x32.Idx → α) (h₁ : S1024x32.BroadcastsInDim S1024x32x1 ![0, 1])
    (h₂ : S1024x32x1.BroadcastsInDim S1024x32x8 ![0, 1, 2]) (r : Fin 1024) (f : Fin 32) (mm : Fin 8) :
    broadcastInDim S1024x32x8 ![0, 1, 2] h₂ (broadcastInDim S1024x32x1 ![0, 1] h₁ x) (ix3 r f mm) = x (ix2 r f) := by
  refine (broadcastInDim_apply ![0, 1, 2] h₂ _ (ix3 r f mm) (ix3 r f (0 : Fin 1)) (fun a => match a with
    | ⟨0, _⟩ => by show r.val = if (1024 : Nat) = 1 then 0 else r.val; rw [if_neg (by decide)]
    | ⟨1, _⟩ => by show f.val = if (32 : Nat) = 1 then 0 else f.val; rw [if_neg (by decide)]
    | ⟨2, _⟩ => by show 0 = if (1 : Nat) = 1 then 0 else mm.val; rw [if_pos rfl])).trans ?_
  exact broadcastInDim_apply ![0, 1] h₁ x (ix3 r f (0 : Fin 1)) (ix2 r f) (fun a => match a with
    | ⟨0, _⟩ => by show r.val = if (1024 : Nat) = 1 then 0 else r.val; rw [if_neg (by decide)]
    | ⟨1, _⟩ => by show f.val = if (32 : Nat) = 1 then 0 else f.val; rw [if_neg (by decide)])

/-- The positions `0 … 7` along the third axis, repeated over rules and features: entry `(r, f, mm)` is the word `mm`. -/
theorem positions_repeated (h : S1x1x8.BroadcastsInDim S1024x32x8 ![0, 1, 2]) (r : Fin 1024) (f : Fin 32) (mm : Fin 8) :
    broadcastInDim S1024x32x8 ![0, 1, 2] h (iotaInDim S1x1x8 32 2) (ix3 r f mm) = BitVec.ofNat 32 mm.val :=
  broadcastInDim_apply ![0, 1, 2] h (iotaInDim S1x1x8 32 2) (ix3 r f mm) (ix3 (0 : Fin 1) (0 : Fin 1) mm) (fun a => match a with
    | ⟨0, _⟩ => by show 0 = if (1 : Nat) = 1 then 0 else r.val; rw [if_pos rfl]
    | ⟨1, _⟩ => by show 0 = if (1 : Nat) = 1 then 0 else f.val; rw [if_pos rfl]
    | ⟨2, _⟩ => by show mm.val = if (8 : Nat) = 1 then 0 else mm.val; rw [if_neg (by decide)])

end Layout

/-- The truth value of an equality of words, converted to a float exactly: one if they are equal and zero if not. -/
theorem eq_bit_to_real (a b : BitVec 32) :
    FloatOps.uitofp (F := Ideal) .f32 (IntOp.cmpi .eq a b) = if a = b then ((1 : ℝ) : EReal) else ((0 : ℝ) : EReal) := by
  have two : ∀ t : BitVec 1, t ≠ 1#1 → t = 0#1 := by decide
  by_cases hab : a = b
  · rw [if_pos hab, IntOp.cmpi_eq.2 hab]
    show (((1#1 : BitVec 1).toNat : ℝ) : EReal) = ((1 : ℝ) : EReal)
    rw [show (1#1 : BitVec 1).toNat = 1 from rfl, Nat.cast_one]
  · rw [if_neg hab, two _ (fun e => hab (IntOp.cmpi_eq.1 e))]
    show (((0#1 : BitVec 1).toNat : ℝ) : EReal) = ((0 : ℝ) : EReal)
    rw [show (0#1 : BitVec 1).toNat = 0 from rfl, Nat.cast_zero]

/-! ## The two arrays as the region finds them -/

/-- The first array is the memberships with the last two axes merged. -/
theorem v0_eq (c : Dev nD) :
    (V m c main_v0 : S4096x256.Idx → EReal) = shapeCast S4096x256 (mfArg m c) shapeCasts_S4096x32x8_S4096x256 := by
  dsimp only [Gen.V]
  simp only [Gen.hostOps0, Gen.hostOps0_1, Gen.hostOps0_2, List.flatten_cons, List.flatten_nil, List.append_nil,
    List.cons_append, List.nil_append]
  after_results
  rfl

/-- The second array: compare the repeated table with the repeated positions, convert, move the rule axis last, merge
    the feature and membership axes. -/
theorem v3_eq (c : Dev nD) :
    (V m c main_v3 : S256x1024.Idx → EReal) =
      shapeCast S256x1024
        (transpose S32x8x1024 [1, 2, 0]
          (uitofp (F := Ideal) .f32
            (cmpi .eq
              (broadcastInDim S1024x32x8 ![0, 1, 2] bcast_S1024x32x1_S1024x32x8_0_1_2
                (broadcastInDim S1024x32x1 ![0, 1] bcast_S1024x32_S1024x32x1_0_1 (riArg m c)))
              (broadcastInDim S1024x32x8 ![0, 1, 2] bcast_S1x1x8_S1024x32x8_0_1_2 (iotaInDim S1x1x8 32 2))))
          transposes_S1024x32x8_S32x8x1024_1_2_0)
        shapeCasts_S32x8x1024_S256x1024 := by
  dsimp only [Gen.V]
  simp only [Gen.hostOps0, Gen.hostOps0_1, Gen.hostOps0_2, List.flatten_cons, List.flatten_nil, List.append_nil,
    List.cons_append, List.nil_append]
  after_results
  rfl

/-- The flattened memberships at row `b`, position `8 f + mm`. -/
theorem mf_flat (c : Dev nD) (b : Fin 4096) (f : Fin 32) (mm : Fin 8) :
    (V m c main_v0 : S4096x256.Idx → EReal) (ix2 b (flat f mm)) = mfArg m c (ix3 b f mm) := by
  rw [v0_eq m c]
  exact merge_last (mfArg m c) _ b f mm

/-- The weights at position `8 f + mm`, column `r`. -/
theorem weight_flat (c : Dev nD) (f : Fin 32) (mm : Fin 8) (r : Fin 1024) :
    (V m c main_v3 : S256x1024.Idx → EReal) (ix2 (flat f mm) r) = sel (riArg m c) r f mm := by
  rw [v3_eq m c]
  refine (merge_first _ _ f mm r).trans ?_
  refine (rule_axis_last _ _ f mm r).trans ?_
  -- the converted comparison at entry `(r, f, mm)` is the conversion of the comparison of the two entries
  show FloatOps.uitofp (F := Ideal) .f32 (IntOp.cmpi .eq
      (broadcastInDim S1024x32x8 ![0, 1, 2] bcast_S1024x32x1_S1024x32x8_0_1_2
        (broadcastInDim S1024x32x1 ![0, 1] bcast_S1024x32_S1024x32x1_0_1 (riArg m c)) (ix3 r f mm))
      (broadcastInDim S1024x32x8 ![0, 1, 2] bcast_S1x1x8_S1024x32x8_0_1_2 (iotaInDim S1x1x8 32 2) (ix3 r f mm))) = _
  rw [table_repeated (riArg m c) _ _ r f mm, positions_repeated _ r f mm]
  exact eq_bit_to_real _ _

end Cert.RuleLayer.Prefix

end
-- ==== Proof.KernelArray.lean ====
/-
  The kernel's two result arrays after the run, as the rule layer's function of the arguments.

  The grid has eight points; point `t` works on the 512 samples `512 t … 512 t + 511`.  Its first input block is those
  rows of the flattened memberships, its second the whole table of weights (the same at every point), and it writes
  back rows `512 t … 512 t + 511` of each result.  Row `p` of the block is sample `512 t + p`; the contraction over the
  256 flattened positions `8 f + m` of `log (membership + ε₁)` with the weights is the double sum over features and
  memberships of the specification, so the first stored value at `(p, q)` is `firing (512 t + p) q`; the second is
  that times the reciprocal of the row's total plus `ε₂`, which is the quotient because the total is never zero.  The
  eight blocks of 512 rows tile the 4096 rows, so each array ends holding the specification's function everywhere.
-/
import proofs.«413795_j19387482374754_3_alg».proof.Proof.Gen.KernelIdeal.Value
import proofs.«413795_j19387482374754_3_alg».proof.Proof.KernelEntry
import proofs.«413795_j19387482374754_3_alg».proof.Proof.HostPrefix
import proofs.«413795_j19387482374754_3_alg».proof.Proof.RuleSpec
import Idealize.ShloMosaic.Lib.Pipeline.Value
import Idealize.ShloMosaic.Lib.ValueIdx

set_option maxRecDepth 16384

noncomputable section

open scoped BigOperators

namespace Cert.RuleLayer.Array

open Cert.KernelIdeal Cert.KernelIdeal.Gen Idealize.ShloMosaic Idealize.ShloMosaic.TcCoe Idealize.SL.Sem
open Idealize.ShloMosaic.Pipeline (Dat)
open Idealize.ShloMosaic.ValueIdx Cert.RuleLayer Cert.RuleLayer.Prefix Cert.RuleLayer.Body

variable (m : (ℓ : Loc nD τ sig) → Buf (Elt Ideal) ℓ) (ρ : Dev nD → PrngReg)

theorem origin : (![0, 0] : Fin 2 → Nat) = fun _ => 0 := funext fun a => by fin_cases a <;> rfl

/-- The block indices, decided over the eight points: the memberships' block and both results' blocks are block `t`
    of the rows, the weights' block is the one block there is. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 8 := by
  have h := t.isLt
  have e : cfg0.N = 8 := N_0
  omega

/-- The sample that row `p` of point `t`'s block is. -/
def row (t : Fin cfg0.N) (p : Fin 512) : Fin 4096 :=
  ⟨512 * t.val + p.val, by have := point_lt t; have := p.isLt; omega⟩

/-- Point `t`'s two input blocks, at their literal types. -/
abbrev xblk (c : Dev nD) (t : Fin cfg0.N) : Vec Ideal S512x256 .f32 := iblk m c 0 t
abbrev wblk (c : Dev nD) (t : Fin cfg0.N) : Vec Ideal S256x1024 .f32 := iblk m c 1 t

/-- Row `p` of the memberships' block is row `512 t + p` of the flattened memberships. -/
theorem xblk_apply (c : Dev nD) (t : Fin cfg0.N) (p : Fin 512) (k : Fin 256) :
    xblk m c t (ix2 p k) = (V m c main_v0 : S4096x256.Idx → EReal) (ix2 (row t p) k) := by
  obtain ⟨e0, e1, -⟩ := block_index t
  show (V m c main_v0 : S4096x256.Idx → EReal) (((cfg0.win 0).blk t).view.emb (ix2 p k)) = _
  refine congrArg (V m c main_v0 : S4096x256.Idx → EReal) ?_
  funext a; apply Fin.ext
  match a with
  | ⟨0, _⟩ => show win0_0.index t (0 : Fin 2) * 512 + 1 * p.val = 512 * t.val + p.val; omega
  | ⟨1, _⟩ => show win0_0.index t (1 : Fin 2) * 256 + 1 * k.val = k.val; omega

/-- The weights' block is the whole table of weights. -/
theorem wblk_apply (c : Dev nD) (t : Fin cfg0.N) (k : Fin 256) (q : Fin 1024) :
    wblk m c t (ix2 k q) = (V m c main_v3 : S256x1024.Idx → EReal) (ix2 k q) := by
  obtain ⟨-, -, e2, e3, -⟩ := block_index t
  show (V m c main_v3 : S256x1024.Idx → EReal) (((cfg0.win 1).blk t).view.emb (ix2 k q)) = _
  refine congrArg (V m c main_v3 : S256x1024.Idx → EReal) ?_
  funext a; apply Fin.ext
  match a with
  | ⟨0, _⟩ => show win0_1.index t (0 : Fin 2) * 256 + 1 * k.val = k.val; omega
  | ⟨1, _⟩ => show win0_1.index t (1 : Fin 2) * 1024 + 1 * q.val = q.val; omega

/-- THE FIRST STORED VALUE at row `p`, column `q` of point `t`'s block is the firing strength of rule `q` on sample
    `512 t + p`: the contraction over the flattened positions is the double sum over features and memberships. -/
theorem pay1_at (c : Dev nD) (t : Fin cfg0.N) (p : Fin 512) (q : Fin 1024) :
    k0_pay1 (F := Ideal) (xblk m c t) (wblk m c t) (ix2 p q) = firing (mfArg m c) (riArg m c) (row t p) q := by
  have hk : ∀ (f : Fin 32) (mm : Fin 8),
      Ideal.log (xblk m c t (ix2 p (flat f mm)) + eps₁) * wblk m c t (ix2 (flat f mm) q)
        = lgm (mfArg m c) (row t p) f mm * sel (riArg m c) q f mm := by
    intro f mm
    rw [xblk_apply m c t p (flat f mm), wblk_apply m c t (flat f mm) q, mf_flat m c (row t p) f mm,
      weight_flat m c f mm q]
    rfl
  refine (firing_entry (xblk m c t) (wblk m c t) p q).trans ?_
  unfold firing
  refine congrArg Ideal.exp ?_
  refine (sum_flat (fun k => Ideal.log (xblk m c t (ix2 p k) + eps₁) * wblk m c t (ix2 k q))).trans ?_
  exact Finset.sum_congr rfl fun f _ => Finset.sum_congr rfl fun mm _ => hk f mm

/-! ## The first result -/

/-- Where block entry `(p, q)` of point `t` sits in the first result. -/
theorem emb2 (t : Fin cfg0.N) (p : Fin 512) (q : Fin 1024) :
    ((cfg0.win 2).blk t).view.emb (ix2 p q) = ix2 (row t p) q := by
  obtain ⟨-, -, -, -, e4, e5, -⟩ := block_index t
  funext a; apply Fin.ext
  match a with
  | ⟨0, _⟩ => show win0_2.index t (0 : Fin 2) * 512 + 1 * p.val = 512 * t.val + p.val; omega
  | ⟨1, _⟩ => show win0_2.index t (1 : Fin 2) * 1024 + 1 * q.val = q.val; omega

theorem firing_block (c : Dev nD) (t : Fin cfg0.N) (j : S512x1024.Idx) :
    k0_pay1 (F := Ideal) (xblk m c t) (wblk m c t) j
      = firingArr (mfArg m c) (riArg m c) (((cfg0.win 2).blk t).view.emb j) := by
  obtain ⟨p, q, rfl⟩ : ∃ (p : Fin 512) (q : Fin 1024), j = ix2 p q := ⟨j 0, j 1, eq_ix2 j⟩
  rw [emb2 t p q, firingArr_ix2]
  exact pay1_at m c t p q

/-- WHAT POINT `t` WRITES BACK to the first result is block `t` of the firing strengths. -/
theorem flushed2_eq (c : Dev nD) (t : Fin cfg0.N) :
    (dats m 0 c).flushed 2 t = ((cfg0.win 2).blk t).view.read (Elt Ideal) (firingArr (mfArg m c) (riArg m c)) := by
  rw [Cert.KernelIdeal.Value.flushed2]
  unfold out0_2
  rw [View.canon_unit_zero origin]
  simp only [View.ld_unit_zero (S := S512x256) origin, View.ld_unit_zero (S := S256x1024) origin]
  funext j
  show k0_pay1 (F := Ideal) (xblk m c t) (wblk m c t) j
    = firingArr (mfArg m c) (riArg m c) (((cfg0.win 2).blk t).view.emb j)
  exact firing_block m c t j

theorem mem_blk2 (t : Fin cfg0.N) (i : S4096x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v4_0).slice (win0_2.rect t)).set ↔ _
  rw [View.set_slice_whole, Rect.mem_set_unit]
  exact Iff.rfl

/-- Every index of the first result is in the block of the point its row belongs to. -/
theorem cover2 (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  have hN : cfg0.N = 8 := N_0
  have ht : (i 0).val / 512 < cfg0.N := by omega
  obtain ⟨-, -, -, -, e4, e5, -⟩ := block_index ⟨(i 0).val / 512, ht⟩
  have e4' : win0_2.index ⟨(i 0).val / 512, ht⟩ (0 : Fin 2) = (i 0).val / 512 := e4
  refine ⟨⟨(i 0).val / 512, ht⟩, flush0_2 _, ?_⟩
  rw [mem_blk2]
  intro a
  match a with
  | ⟨0, _⟩ =>
    show win0_2.index ⟨(i 0).val / 512, ht⟩ (0 : Fin 2) * 512 ≤ (i 0).val
      ∧ (i 0).val < win0_2.index ⟨(i 0).val / 512, ht⟩ (0 : Fin 2) * 512 + 512
    omega
  | ⟨1, _⟩ =>
    show win0_2.index ⟨(i 0).val / 512, ht⟩ (1 : Fin 2) * 1024 ≤ (i 1).val
      ∧ (i 1).val < win0_2.index ⟨(i 0).val / 512, ht⟩ (1 : Fin 2) * 1024 + 1024
    omega

/-- THE FIRST RESULT after the run is the firing strengths. -/
theorem final2 (c : Dev nD) : (dats m 0 c).arrAt 2 cfg0.N = firingArr (mfArg m c) (riArg m c) :=
  (dats m 0 c).arrAt_eq_of_cover 2 (firingArr (mfArg m c) (riArg m c)) (fun t _ => flushed2_eq m c t) cover2

/-! ## The second result -/

theorem emb3 (t : Fin cfg0.N) (p : Fin 512) (q : Fin 1024) :
    ((cfg0.win 3).blk t).view.emb (ix2 p q) = ix2 (row t p) q := by
  obtain ⟨-, -, -, -, -, -, e6, e7⟩ := block_index t
  funext a; apply Fin.ext
  match a with
  | ⟨0, _⟩ => show win0_3.index t (0 : Fin 2) * 512 + 1 * p.val = 512 * t.val + p.val; omega
  | ⟨1, _⟩ => show win0_3.index t (1 : Fin 2) * 1024 + 1 * q.val = q.val; omega

/-- The second stored value at a block entry is the normalised strength: the row's total plus `ε₂` is the
    specification's denominator, never zero, so the product with its reciprocal is the quotient. -/
theorem norm_block (c : Dev nD) (t : Fin cfg0.N) (j : S512x1024.Idx) :
    Cert.KernelIdeal.Value.E3 (F := Ideal) (xblk m c t) (wblk m c t) j
      = normArr (mfArg m c) (riArg m c) (((cfg0.win 3).blk t).view.emb j) := by
  obtain ⟨p, q, rfl⟩ : ∃ (p : Fin 512) (q : Fin 1024), j = ix2 p q := ⟨j 0, j 1, eq_ix2 j⟩
  rw [emb3 t p q, normArr_ix2]
  refine (norm_entry (xblk m c t) (wblk m c t) p q).trans ?_
  have hs : (∑ q' : Fin 1024, k0_pay1 (F := Ideal) (xblk m c t) (wblk m c t) (ix2 p q')) + eps₂
      = denom (mfArg m c) (riArg m c) (row t p) := by
    unfold denom
    exact congrArg (· + eps₂) (Finset.sum_congr rfl fun q' _ => pay1_at m c t p q')
  rw [hs, pay1_at m c t p q]
  exact mul_recip _ _ (denom_ne_zero _ _ _)

/-- WHAT POINT `t` WRITES BACK to the second result is block `t` of the normalised strengths. -/
theorem flushed3_eq (c : Dev nD) (t : Fin cfg0.N) :
    (dats m 0 c).flushed 3 t = ((cfg0.win 3).blk t).view.read (Elt Ideal) (normArr (mfArg m c) (riArg m c)) := by
  rw [Cert.KernelIdeal.Value.flushed3]
  unfold out0_3
  simp only [View.ld_unit_zero (S := S512x256) origin, View.ld_unit_zero (S := S256x1024) origin]
  funext j
  show (View.canon [(⟨r0_2, k0_pay2 (F := Ideal) (xblk m c t) (wblk m c t)⟩ : View.Piece (Elt Ideal) S512x1024 .f32)]
      : Vec Ideal S512x1024 .f32) j
    = normArr (mfArg m c) (riArg m c) (((cfg0.win 3).blk t).view.emb j)
  refine (Cert.KernelIdeal.Value.canon3_eq (xblk m c t) (wblk m c t) j).trans ?_
  exact norm_block m c t j

theorem mem_blk3 (t : Fin cfg0.N) (i : S4096x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v4_1).slice (win0_3.rect t)).set ↔ _
  rw [View.set_slice_whole, Rect.mem_set_unit]
  exact Iff.rfl

theorem cover3 (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  have hN : cfg0.N = 8 := N_0
  have ht : (i 0).val / 512 < cfg0.N := by omega
  obtain ⟨-, -, -, -, -, -, e6, e7⟩ := block_index ⟨(i 0).val / 512, ht⟩
  have e6' : win0_3.index ⟨(i 0).val / 512, ht⟩ (0 : Fin 2) = (i 0).val / 512 := e6
  refine ⟨⟨(i 0).val / 512, ht⟩, flush0_3 _, ?_⟩
  rw [mem_blk3]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    omega
  | ⟨1, _⟩ =>
    show win0_3.index ⟨(i 0).val / 512, ht⟩ (1 : Fin 2) * 1024 ≤ (i 1).val
      ∧ (i 1).val < win0_3.index ⟨(i 0).val / 512, ht⟩ (1 : Fin 2) * 1024 + 1024
    omega

/-- THE SECOND RESULT after the run is the normalised strengths. -/
theorem final3 (c : Dev nD) : (dats m 0 c).arrAt 3 cfg0.N = normArr (mfArg m c) (riArg m c) :=
  (dats m 0 c).arrAt_eq_of_cover 3 (normArr (mfArg m c) (riArg m c)) (fun t _ => flushed3_eq m c t) cover3

/-! ## The run -/

/-- Every weakly fair execution of the kernel's program ends with the two results at the rule layer's function of
    the arguments, the arguments unchanged. -/
theorem run : θ_run defs (onTc (τ := τ) (main (F := Ideal))) ⟨m, fun _ => 0, ρ⟩ fun r => ∀ c : Dev nD,
      r.2.mem ((c : Thread nD τ).loc main_v4_0) = firingArr (mfArg m c) (riArg m c)
      ∧ r.2.mem ((c : Thread nD τ).loc main_v4_1) = normArr (mfArg m c) (riArg m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c),
      (h c).2.2.1, (h c).2.2.2⟩)
    (Cert.KernelIdeal.Value.run_blocks m ρ)

end Cert.RuleLayer.Array

end
-- ==== Proof.RefValue.lean ====
/-
  The reference's two results as the rule layer's function, for a rule table whose words are in range.

  The reference pairs each word `ri r f` with the feature's own number and gathers `mf b f (ri r f)`: a word in
  `[0, 8)` is neither wrapped (it is not negative) nor clamped (it is at most 7), and the feature's number `f < 32`
  likewise.  The sum over the features of the logarithms is then the contraction with the weights, one named term per
  feature; the rest of the program is the specification's own operations.
-/
import proofs.«413795_j19387482374754_3_alg».proof.Proof.Gen.ReferenceIdeal.Read
import proofs.«413795_j19387482374754_3_alg».proof.Proof.RuleSpec
import Idealize.ShloMosaic.Lib.Pipeline.Value
import Idealize.ShloMosaic.Lib.ValueIdx
import Idealize.ShloMosaic.PureOps.Ideal.Laws
import Idealize.ShloMosaic.Lib.StableHlo.Predicate

noncomputable section

open scoped BigOperators

namespace Cert.RuleLayer.Ref

open Cert.ReferenceIdeal Cert.ReferenceIdeal.Gen Cert.ReferenceIdeal.Read Idealize.ShloMosaic Idealize.ShloMosaic.ValueIdx
open Cert.RuleLayer

/-! ## Words -/

/-- A word below 2³¹ is not below zero as a signed number. -/
theorem not_slt_zero (w : BitVec 32) (hw : w.toNat < 2 ^ 31) : IntOp.cmpi .slt w 0#32 = 0#1 := by
  refine eq_zero_of_ne_one fun h => ?_
  have := (StableHlo.Predicate.slt_iff_toNat hw (by decide)).1 h
  exact Nat.not_lt_zero _ this

/-- A word below 2³¹ read signed and then as a natural number is its value. -/
theorem toInt_toNat_small (w : BitVec 32) (hw : w.toNat < 2 ^ 31) : w.toInt.toNat = w.toNat := by
  rw [StableHlo.Predicate.toInt_eq_toNat_of_lt hw]
  exact Int.toNat_natCast _

/-- The wrap of a word that is not negative keeps the word. -/
theorem wrap_keep (w k : BitVec 32) (hw : w.toNat < 2 ^ 31) :
    Scalar.select (IntOp.cmpi .slt w 0#32) (IntOp.addi w k) w = w := by
  rw [not_slt_zero w hw]; exact select_zero _ _

/-! ## The gather at an index -/

/-- The gather at `(b, r, f)` reads the operand at `b` on the sample axis and, on the other two axes, at the two
    components of the start index `(r, f)`, each read signed and clamped to its axis. -/
theorem gather_read {α : Type} (x : S4096x32x8.Idx → α) (idx : IVec S1024x32x2 32) (b : Fin 4096) (r : Fin 1024) (f : Fin 32)
    (p : Fin 32) (q : Fin 8)
    (hp : min (idx (ix3 r f (0 : Fin 2))).toInt.toNat 31 = p.val)
    (hq : min (idx (ix3 r f (1 : Fin 2))).toInt.toNat 7 = q.val) :
    Host.gather gather_S4096x32x8_S1024x32x2_S4096x1024x32_0_12_n_n_12_2_409611 x idx (ix3 b r f) = x (ix3 b p q) := by
  unfold Host.gather
  refine congrArg x (funext fun a => Fin.ext ?_)
  match a with
  | ⟨0, _⟩ =>
    -- the sample axis is an offset axis: no start, the result's own coordinate
    show GatherDims.start _ (ix3 b r f) idx 0 + GatherDims.batchCoord _ (ix3 b r f) 0 + GatherDims.offCoord _ (ix3 b r f) 0 = b.val
    rw [GatherDims.batchCoord_eq_zero _ _ _ List.not_mem_nil]
    unfold GatherDims.start
    rw [dif_neg (by decide)]
    unfold GatherDims.offCoord
    rw [dif_pos (by decide), Nat.zero_add]
    rfl
  | ⟨1, _⟩ =>
    -- the feature axis is collapsed: the start index's first component, clamped to 31
    show GatherDims.start _ (ix3 b r f) idx 1 + GatherDims.batchCoord _ (ix3 b r f) 1 + GatherDims.offCoord _ (ix3 b r f) 1 = p.val
    rw [GatherDims.batchCoord_eq_zero _ _ _ List.not_mem_nil,
      GatherDims.offCoord_eq_zero _ _ _ (fun h => ((GatherDims.mem_sKept _ _).mp h).1 (by decide))]
    unfold GatherDims.start
    rw [dif_pos (show (1 : Fin 3) ∈ (gather_S4096x32x8_S1024x32x2_S4096x1024x32_0_12_n_n_12_2_409611).startIndexMap from by decide)]
    have hsi : (gather_S4096x32x8_S1024x32x2_S4096x1024x32_0_12_n_n_12_2_409611).siIdx (ix3 b r f)
        ⟨List.idxOf (1 : Fin 3) (gather_S4096x32x8_S1024x32x2_S4096x1024x32_0_12_n_n_12_2_409611).startIndexMap,
          List.idxOf_lt_length_iff.2 (by decide)⟩ = ix3 r f (0 : Fin 2) := by
      funext c; refine Fin.ext ?_
      match c with
      | ⟨0, _⟩ => rfl
      | ⟨1, _⟩ => rfl
      | ⟨2, _⟩ => rfl
    rw [hsi]
    exact hp
  | ⟨2, _⟩ =>
    -- the membership axis is collapsed: the start index's second component, clamped to 7
    show GatherDims.start _ (ix3 b r f) idx 2 + GatherDims.batchCoord _ (ix3 b r f) 2 + GatherDims.offCoord _ (ix3 b r f) 2 = q.val
    rw [GatherDims.batchCoord_eq_zero _ _ _ List.not_mem_nil,
      GatherDims.offCoord_eq_zero _ _ _ (fun h => ((GatherDims.mem_sKept _ _).mp h).1 (by decide))]
    unfold GatherDims.start
    rw [dif_pos (show (2 : Fin 3) ∈ (gather_S4096x32x8_S1024x32x2_S4096x1024x32_0_12_n_n_12_2_409611).startIndexMap from by decide)]
    have hsi : (gather_S4096x32x8_S1024x32x2_S4096x1024x32_0_12_n_n_12_2_409611).siIdx (ix3 b r f)
        ⟨List.idxOf (2 : Fin 3) (gather_S4096x32x8_S1024x32x2_S4096x1024x32_0_12_n_n_12_2_409611).startIndexMap,
          List.idxOf_lt_length_iff.2 (by decide)⟩ = ix3 r f (1 : Fin 2) := by
      funext c; refine Fin.ext ?_
      match c with
      | ⟨0, _⟩ => rfl
      | ⟨1, _⟩ => rfl
      | ⟨2, _⟩ => rfl
    rw [hsi]
    exact hq

/-! ## The start indices: the feature's own number beside the rule's word -/

/-- Component 0 of the start index at `(r, f)` is the feature's number `f`: not negative, so the wrap keeps it. -/
theorem v15_left (x1 : IVec SRi 32) (r : Fin 1024) (f : Fin 32) :
    val_main_v15 (F := Ideal) x1 (ix3 r f (0 : Fin 2)) = BitVec.ofNat 32 f.val := by
  unfold val_main_v15
  refine (concatenate_pair_apply_left _ _ _ concatenates_S1024x32x1_S1024x32x1_S1024x32x2_d2 (ix3 r f (0 : Fin 2)) rfl
    (ix3 r f (0 : Fin 1)) ?_).trans ?_
  · intro c
    match c with
    | ⟨0, _⟩ => rfl
    | ⟨1, _⟩ => rfl
    | ⟨2, _⟩ => rfl
  · have h1 : val_main_v1 (F := Ideal) (idx_main_v12 (idx_main_v13 (ix3 r f (0 : Fin 1)))) = BitVec.ofNat 32 f.val := by
      rw [val_main_v1_apply, val_main_v0_apply]
    have hlt : (BitVec.ofNat 32 f.val).toNat < 2 ^ 31 := by
      have := f.isLt
      rw [BitVec.toNat_ofNat]
      omega
    rw [val_main_v13_apply, val_main_v12_apply, val_main_v6_apply, val_main_v3_apply, val_main_v5_apply, val_main_v2_apply,
      val_main_c_apply, h1]
    exact wrap_keep _ _ hlt

/-- Component 1 of the start index at `(r, f)` is the rule's word for the feature: in range, so not negative, and the
    wrap keeps it. -/
theorem v15_right (x1 : IVec SRi 32) (r : Fin 1024) (f : Fin 32) (h : (x1 (ix2 r f)).toNat < 8) :
    val_main_v15 (F := Ideal) x1 (ix3 r f (1 : Fin 2)) = x1 (ix2 r f) := by
  unfold val_main_v15
  refine (concatenate_pair_apply_right _ _ _ concatenates_S1024x32x1_S1024x32x1_S1024x32x2_d2 (ix3 r f (1 : Fin 2)) rfl rfl
    (ix3 r f (0 : Fin 1)) ?_ ?_).trans ?_
  · intro c hc
    match c with
    | ⟨0, _⟩ => rfl
    | ⟨1, _⟩ => rfl
    | ⟨2, _⟩ => exact absurd rfl hc
  · rfl
  · have hi : idx_main_v14 (ix3 r f (0 : Fin 1)) = ix2 r f :=
      funext fun c => Fin.ext (by match c with | ⟨0, _⟩ => rfl | ⟨1, _⟩ => rfl)
    rw [val_main_v14_apply, val_main_v11_apply, val_main_v8_apply, val_main_v10_apply, val_main_v7_apply, val_main_c_1_apply, hi]
    exact wrap_keep _ _ (by omega)
/-- The gathered membership at `(b, r, f)` is the one rule `r` names for feature `f`. -/
theorem gathered (x0 : FVec Ideal SMf .f32) (x1 : IVec SRi 32) (hR : ∀ (r : Fin 1024) (f : Fin 32), (x1 (ix2 r f)).toNat < 8)
    (b : Fin 4096) (r : Fin 1024) (f : Fin 32) :
    val_main_v16 (F := Ideal) x0 x1 (ix3 b r f) = x0 (ix3 b f ⟨(x1 (ix2 r f)).toNat, hR r f⟩) := by
  unfold val_main_v16
  refine gather_read x0 (val_main_v15 (F := Ideal) x1) b r f f ⟨(x1 (ix2 r f)).toNat, hR r f⟩ ?_ ?_
  · -- the feature's number is below 32: read signed it is itself, and the clamp to 31 keeps it
    have hf := f.isLt
    have hlt : (BitVec.ofNat 32 f.val).toNat = f.val := by rw [BitVec.toNat_ofNat]; omega
    rw [v15_left, toInt_toNat_small _ (by omega), hlt]
    exact Nat.min_eq_left (by omega)
  · -- the rule's word is below 8: read signed it is itself, and the clamp to 7 keeps it
    have hw := hR r f
    rw [v15_right x1 r f hw, toInt_toNat_small _ (by omega)]
    exact Nat.min_eq_left (by omega)

/-! ## The firing strengths -/

/-- The logarithm stage at `(b, r, f)` is the log-membership rule `r` names for feature `f`. -/
theorem log_at (x0 : FVec Ideal SMf .f32) (x1 : IVec SRi 32) (hR : ∀ (r : Fin 1024) (f : Fin 32), (x1 (ix2 r f)).toNat < 8)
    (b : Fin 4096) (r : Fin 1024) (f : Fin 32) :
    val_main_v19 (F := Ideal) x0 x1 (ix3 b r f) = lgm x0 b f ⟨(x1 (ix2 r f)).toNat, hR r f⟩ := by
  rw [val_main_v19_apply, val_main_v18_apply, val_main_v17_apply, val_main_cst_apply, gathered x0 x1 hR]
  rfl

/-- The reference's firing strength of rule `r` on sample `b`: the exponential of the sum over the features of the
    named log-memberships, which is the contraction with the rule's weights. -/
theorem firing_at (x0 : FVec Ideal SMf .f32) (x1 : IVec SRi 32) (hR : ∀ (r : Fin 1024) (f : Fin 32), (x1 (ix2 r f)).toNat < 8)
    (b : Fin 4096) (r : Fin 1024) :
    val_main_v21 (F := Ideal) x0 x1 (ix2 b r) = firing x0 x1 b r := by
  have hidx : ∀ k : Fin 32, idx_main_v20 (ix2 b r) k = ix3 b r k := fun k =>
    funext fun a => Fin.ext (by match a with | ⟨0, _⟩ => rfl | ⟨1, _⟩ => rfl | ⟨2, _⟩ => rfl)
  rw [val_main_v21_apply, val_main_v20_apply, val_main_cst_3_apply]
  unfold firing
  refine congrArg Ideal.exp ?_
  refine (congrArg (· + _) Ideal.ofBits_zero_f32).trans ?_
  refine (zero_add _).trans ?_
  refine Finset.sum_congr rfl fun k _ => ?_
  rw [hidx k, log_at x0 x1 hR, sum_mul_sel x0 x1 b r k (hR r k)]

/-- The reference's first result is the firing strengths. -/
theorem firing_eq (x0 : FVec Ideal SMf .f32) (x1 : IVec SRi 32) (hR : ∀ (r : Fin 1024) (f : Fin 32), (x1 (ix2 r f)).toNat < 8) :
    val_main_v21 (F := Ideal) x0 x1 = firingArr x0 x1 := by
  funext j
  obtain ⟨b, r, rfl⟩ : ∃ (b : Fin 4096) (r : Fin 1024), j = ix2 b r := ⟨j 0, j 1, eq_ix2 j⟩
  rw [firingArr_ix2]
  exact firing_at x0 x1 hR b r

/-! ## The normalised strengths -/

/-- The reference's denominator for sample `b`, broadcast along the rules: the total firing strength plus the second
    epsilon. -/
theorem denom_at (x0 : FVec Ideal SMf .f32) (x1 : IVec SRi 32) (hR : ∀ (r : Fin 1024) (f : Fin 32), (x1 (ix2 r f)).toNat < 8)
    (b : Fin 4096) (r : Fin 1024) :
    val_main_v26 (F := Ideal) x0 x1 (ix2 b r) = denom x0 x1 b := by
  have hidx : ∀ k : Fin 1024, idx_main_v22 (idx_main_v23 (idx_main_v26 (ix2 b r))) k = ix2 b k := fun k =>
    funext fun a => Fin.ext (by match a with | ⟨0, _⟩ => rfl | ⟨1, _⟩ => rfl)
  rw [val_main_v26_apply, val_main_v25_apply, val_main_v24_apply, val_main_cst_5_apply, val_main_v23_apply, val_main_v22_apply,
    val_main_cst_4_apply]
  unfold denom
  show (_ + _) + eps₂ = _ + eps₂
  refine congrArg (· + eps₂) ?_
  refine (congrArg (· + _) Ideal.ofBits_zero_f32).trans ?_
  refine (zero_add _).trans ?_
  refine Finset.sum_congr rfl fun k _ => ?_
  rw [hidx k]
  exact firing_at x0 x1 hR b k

/-- The reference's second result is the normalised strengths. -/
theorem norm_eq (x0 : FVec Ideal SMf .f32) (x1 : IVec SRi 32) (hR : ∀ (r : Fin 1024) (f : Fin 32), (x1 (ix2 r f)).toNat < 8) :
    val_main_v27 (F := Ideal) x0 x1 = normArr x0 x1 := by
  funext j
  obtain ⟨b, r, rfl⟩ : ∃ (b : Fin 4096) (r : Fin 1024), j = ix2 b r := ⟨j 0, j 1, eq_ix2 j⟩
  rw [normArr_ix2, val_main_v27_apply, firing_at x0 x1 hR b r, denom_at x0 x1 hR b r]
  rfl

end Cert.RuleLayer.Ref

end
-- ==== Proof.PreRange.lean ====
/-
  The precondition's second and third conjuncts, read: every word of the rule table is at least 0 and less than 8 as a
  signed number, that is, less than 8 as an unsigned one.
-/
import proofs.«413795_j19387482374754_3_alg».proof.Pre_finite_inputs
import proofs.«413795_j19387482374754_3_alg».proof.Proof.Gen.Pre_finite_inputs
import Idealize.ShloMosaic.Lib.ValueIdx
import Idealize.ShloMosaic.Lib.ReduceAll
import Idealize.ShloMosaic.Lib.StableHlo.Predicate

noncomputable section

namespace Cert.RuleLayer.Pre

open Idealize.ShloMosaic Idealize.ShloMosaic.ValueIdx Cert.Pre_finite_inputs

/-- A 32-bit word that is at least 0 and less than 8 read as a signed number is less than 8 read as an unsigned one:
    a word whose top bit is set reads negative, so the lower bound leaves only the words that read the same both ways. -/
theorem toNat_lt_eight (w : BitVec 32) (h0 : (0#32 : BitVec 32).toInt ≤ w.toInt)
    (h8 : w.toInt < (8#32 : BitVec 32).toInt) : w.toNat < 8 := by
  have e0 : (0#32 : BitVec 32).toInt = 0 := by decide
  have e8 : (8#32 : BitVec 32).toInt = 8 := by decide
  rw [e0] at h0
  rw [e8] at h8
  have hw : w.toNat < 2 ^ 32 := w.isLt
  rw [BitVec.toInt_eq_toNat_cond] at h0 h8
  split at h0 <;> omega

/-- Under the precondition every word of the rule table is in `[0, 8)`. -/
theorem range_of_pre {F : FTy → Type} [FloatOps F] [Cert.Pre_finite_inputs.Facts]
    (x0 : FVec F S4096x32x8 .f32) (x1 : IVec S1024x32 32)
    (h : Cert.Pre_finite_inputs.fn (F := F) x0 x1 = (fun _ => 1#1)) (r : Fin 1024) (f : Fin 32) :
    (x1 (ix2 r f)).toNat < 8 := by
  -- the precondition is a rank-0 array: read it at its one index, where it is a conjunction of three bits
  have h0 := congrFun h ValueIdx.ix0
  dsimp only [Cert.Pre_finite_inputs.fn] at h0
  obtain ⟨h01, h10⟩ := IntOp.andi_eq_one.1 h0
  obtain ⟨-, h6⟩ := IntOp.andi_eq_one.1 h01
  -- the second and third bits are conjunctions over the whole table: each holds at the entry `(r, f)`
  haveI : Subsingleton S_.Idx := ⟨fun a b => funext fun d => d.elim0⟩
  have hge := Host.reduce_andi_all _ _ _ _ _ h6 (ix2 r f)
  have hlt := Host.reduce_andi_all _ _ _ _ _ h10 (ix2 r f)
  -- a broadcast scalar reads the scalar at every index, so these compare the entry with 0 and with 8
  have hge' : IntOp.cmpi .sge (x1 (ix2 r f)) (0#32 : BitVec 32) = 1#1 := hge
  have hlt' : IntOp.cmpi .slt (x1 (ix2 r f)) (8#32 : BitVec 32) = 1#1 := hlt
  exact toNat_lt_eight _ (IntOp.cmpi_sge.1 hge') (IntOp.cmpi_slt.1 hlt')

end Cert.RuleLayer.Pre

end
-- ==== Proof.lean ====
/-
  The rule layer's kernel against its reference: a table of rules, each naming for every one of 32 features one of the
  feature's 8 membership values, is applied to 4096 samples; a rule's firing strength on a sample is the product of
  the memberships it names, taken as `exp` of the sum of `log (membership + ε₁)`, and the normalised strength divides
  by the sample's total over the 1024 rules plus `ε₂`.

  The reference gathers the named membership per sample, rule and feature and sums the logarithms over the features.
  The kernel takes the logarithm of every membership once, turns the rule table into a 256 × 1024 table of weights
  (one at the flattened position `8 f + m` of the membership a rule names for feature `f`, zero at the other seven),
  and contracts the two in one matrix product; it normalises by multiplying with the reciprocal of the total.  On
  the extended reals the two are one function of the arguments whenever every word of the rule table names a
  membership, `0 ≤ word < 8` (the precondition's second and third conjuncts): a product with a weight of one is the
  factor and with a weight of zero is zero, for every factor, `log 0 = -∞` included; a finite sum may be regrouped;
  and the total of exponentials plus a positive `ε₂` is never zero, so the product with its reciprocal is the
  quotient.  None of this asks the memberships to be finite, and the proof does not open that part of the
  precondition.  Outside the range the claim fails: a word of `8` or `-1` gives the kernel an all-zero row of weights
  (the feature drops out of the product) while the reference clamps or wraps the word and reads a membership.

  The three frames are the generated ones (the reference's is its generated run with the results dropped);
  `preserves` is trivial, the idealization having rewritten nothing.
-/
import proofs.«413795_j19387482374754_3_alg».proof.Defs
import proofs.«413795_j19387482374754_3_alg».proof.Proof.Gen.Kernel
import proofs.«413795_j19387482374754_3_alg».proof.Proof.Gen.Kernel.Skeleton
import proofs.«413795_j19387482374754_3_alg».proof.Proof.Gen.Kernel.Launch
import proofs.«413795_j19387482374754_3_alg».proof.Proof.Gen.Kernel.Points
import proofs.«413795_j19387482374754_3_alg».proof.Proof.Gen.Kernel.Frame
import proofs.«413795_j19387482374754_3_alg».proof.Proof.Gen.KernelIdeal
import proofs.«413795_j19387482374754_3_alg».proof.Proof.Gen.KernelIdeal.Skeleton
import proofs.«413795_j19387482374754_3_alg».proof.Proof.Gen.KernelIdeal.Launch
import proofs.«413795_j19387482374754_3_alg».proof.Proof.Gen.KernelIdeal.Points
import proofs.«413795_j19387482374754_3_alg».proof.Proof.Gen.KernelIdeal.Frame
import proofs.«413795_j19387482374754_3_alg».proof.Proof.Gen.ReferenceIdeal
import proofs.«413795_j19387482374754_3_alg».proof.Proof.Gen.Pre_finite_inputs
import proofs.«413795_j19387482374754_3_alg».proof.Proof.Gen.KernelIdeal.Value
import proofs.«413795_j19387482374754_3_alg».proof.Proof.Gen.ReferenceIdeal.Run
import proofs.«413795_j19387482374754_3_alg».proof.Proof.Gen.ReferenceIdeal.Read
import proofs.«413795_j19387482374754_3_alg».proof.Proof.KernelArray
import proofs.«413795_j19387482374754_3_alg».proof.Proof.RefValue
import proofs.«413795_j19387482374754_3_alg».proof.Proof.PreRange
import Idealize.ShloMosaic.Adequacy
import Idealize.ShloMosaic.Init

noncomputable section

namespace Cert.Proof

open Idealize.ShloMosaic Idealize.ShloMosaic.TcCoe Idealize.SL.Sem
open Cert.RuleLayer Cert.RuleLayer.Prefix

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs, run from memories that agree on the memberships and on a rule table in range, end with the firing
    strengths and the normalised strengths of the specification. -/
theorem algebraic : Cert.algebraic_KernelIdeal_ReferenceIdeal := by
  intro m ρ m' ρ' hpre hagree
  have hR : ∀ (c : Dev Cert.KernelIdeal.nD) (r : Fin 1024) (f : Fin 32),
      (riArg m c (ValueIdx.ix2 r f)).toNat < 8 :=
    fun c r f => Cert.RuleLayer.Pre.range_of_pre (F := Ideal) (mfArg m c) (riArg m c) (hpre c) r f
  refine ⟨fun c => firingArr (mfArg m c) (riArg m c), fun c => normArr (mfArg m c) (riArg m c),
    Cert.RuleLayer.Array.run m ρ, ?_⟩
  refine (θ_run Cert.ReferenceIdeal.defs _ _).mono (fun _ h c => ⟨?_, ?_, (h c).2.2.1, (h c).2.2.2⟩)
    (Cert.ReferenceIdeal.Value.run (F := Ideal) m' ρ')
  · refine (h c).1.trans ((Cert.ReferenceIdeal.Read.val_main_v21_eq _ _).trans ?_)
    rw [(hagree c).1, (hagree c).2]
    exact Cert.RuleLayer.Ref.firing_eq _ _ (hR c)
  · refine (h c).2.1.trans ((Cert.ReferenceIdeal.Read.val_main_v27_eq _ _).trans ?_)
    rw [(hagree c).1, (hagree c).2]
    exact Cert.RuleLayer.Ref.norm_eq _ _ (hR c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
